-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .f32 = 32 ∨ (Rect.block (s := S4096x4096) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Spec.lean ====
/-
  A dense layer with a requantisation scale, over the extended reals.

  For matrices `x`, `W` of 4096 × 4096 entries and a bias `b` of 4096 entries the result is
      out[i, j] = (Σ_k x[i, k] · W[k, j] + b[j]) · s
  with `s` one fixed scalar (the same 32-bit pattern on both sides, never evaluated).  This module states that
  function (`G`) and the one law the comparison needs: a sum over 4096 contraction indices is the sum, over eight
  consecutive chunks of 512 indices, of the chunk sums.  The extended reals are a commutative additive monoid, so the
  regrouping needs no finiteness.
-/
import Idealize.ShloMosaic.PureOps.Ideal
import Idealize.ShloMosaic.PureOps.Ideal.Laws
import Idealize.ShloMosaic.Lib.ValueIdx

noncomputable section

open scoped BigOperators

namespace Cert.QLinear

open Idealize.ShloMosaic Idealize.ShloMosaic.ValueIdx

/-- The matrices' shape, the bias's shape, and one output tile's shape. -/
abbrev SM : Shape := ⟨2, ![4096, 4096]⟩
abbrev SV : Shape := ⟨1, ![4096]⟩
abbrev ST : Shape := ⟨2, ![1024, 1024]⟩

/-- The requantisation scale, as the extended real its bit pattern denotes. -/
def scale : EReal := Ideal.ofBits .f32 0x3BEBEDFA#32

/-- One entry of the result: row `p` of `x` against column `q` of `W`, plus the bias of column `q`, scaled. -/
def entry (x W : SM.Idx → EReal) (b : SV.Idx → EReal) (p q : Fin 4096) : EReal :=
  ((∑ k : Fin 4096, x (ix2 p k) * W (ix2 k q)) + b (ix1 q)) * scale

/-- The whole result. -/
def G (x W : SM.Idx → EReal) (b : SV.Idx → EReal) : SM.Idx → EReal := fun j =>
  entry x W b ⟨(j 0).val, idx2_lt0 j⟩ ⟨(j 1).val, idx2_lt1 j⟩

/-- The result at the index of coordinates `p`, `q`. -/
theorem G_ix2 (x W : SM.Idx → EReal) (b : SV.Idx → EReal) (p q : Fin 4096) : G x W b (ix2 p q) = entry x W b p q := rfl

/-- A matrix read at natural-number coordinates (zero outside the matrix; only coordinates inside are ever used). -/
def ext2 (x : SM.Idx → EReal) (r c : ℕ) : EReal :=
  if h : r < 4096 ∧ c < 4096 then x (ix2 ⟨r, h.1⟩ ⟨c, h.2⟩) else 0

/-- At the coordinates of an index it is the matrix there. -/
theorem ext2_of_idx (x : SM.Idx → EReal) (i : SM.Idx) {r c : ℕ} (hr : (i 0).val = r) (hc : (i 1).val = c) :
    ext2 x r c = x i := by
  subst hr; subst hc
  unfold ext2
  rw [dif_pos ⟨idx2_lt0 i, idx2_lt1 i⟩]
  exact congrArg x (eq_ix2 i).symm

/-- Summing chunk by chunk: eight chunks of 512 consecutive indices make up the 4096. -/
theorem block_sum {β : Type*} [AddCommMonoid β] (f : ℕ → β) :
    ∑ s ∈ Finset.range 8, ∑ k : Fin 512, f (512 * s + k.val) = ∑ k : Fin 4096, f k.val := by
  have h : ∀ n, ∑ s ∈ Finset.range n, ∑ k : Fin 512, f (512 * s + k.val) = ∑ k ∈ Finset.range (512 * n), f k := by
    intro n
    induction n with
    | zero => simp
    | succ n ih =>
      rw [Finset.sum_range_succ, ih, Nat.mul_succ, Finset.sum_range_add,
        Fin.sum_univ_eq_sum_range (fun k => f (512 * n + k)) 512]
  rw [Fin.sum_univ_eq_sum_range (fun k => f k) 4096]
  exact h 8

/-- The partial product grid point `n` adds into its output tile, at the tile's local index `y`: the point's row block
    is `n / 32`, its column block `n / 8 % 4`, its chunk of the contraction axis `n % 8`. -/
def part (x W : SM.Idx → EReal) (n : ℕ) (y : ST.Idx) : EReal :=
  ∑ k : Fin 512, ext2 x (1024 * (n / 32) + (y 0).val) (512 * (n % 8) + k.val)
    * ext2 W (512 * (n % 8) + k.val) (1024 * (n / 8 % 4) + (y 1).val)

/-- The eight partial products of the run of points that ends at `t` (`t % 8 = 7`) add up to the whole contraction, at
    the array coordinates `p`, `q` that the tile's local index `y` has. -/
theorem parts_sum (x W : SM.Idx → EReal) (t : ℕ) (y : ST.Idx) (p q : Fin 4096)
    (h0 : p.val = 1024 * (t / 32) + (y 0).val) (h1 : q.val = 1024 * (t / 8 % 4) + (y 1).val) :
    ∑ s ∈ Finset.range 8, part x W (8 * (t / 8) + s) y = ∑ k : Fin 4096, x (ix2 p k) * W (ix2 k q) := by
  have e : ∀ s ∈ Finset.range 8, part x W (8 * (t / 8) + s) y
      = ∑ k : Fin 512, (fun k' => ext2 x p.val k' * ext2 W k' q.val) (512 * s + k.val) := by
    intro s hs
    have hs' : s < 8 := Finset.mem_range.mp hs
    unfold part
    rw [show (8 * (t / 8) + s) / 32 = t / 32 by omega, show (8 * (t / 8) + s) % 8 = s by omega,
      show (8 * (t / 8) + s) / 8 % 4 = t / 8 % 4 by omega, ← h0, ← h1]
  rw [Finset.sum_congr rfl e, block_sum (fun k' => ext2 x p.val k' * ext2 W k' q.val)]
  refine Finset.sum_congr rfl fun k _ => ?_
  rw [ext2_of_idx x (ix2 p k) rfl rfl, ext2_of_idx W (ix2 k q) rfl rfl]

/-- So the tile the last point of a run writes back — the bias of the tile's column added to the accumulated sum, then
    scaled — holds the result's entries. -/
theorem tile_entry (x W : SM.Idx → EReal) (b : SV.Idx → EReal) (t : ℕ) (y : ST.Idx) (p q : Fin 4096)
    (h0 : p.val = 1024 * (t / 32) + (y 0).val) (h1 : q.val = 1024 * (t / 8 % 4) + (y 1).val) :
    ((0 + ∑ s ∈ Finset.range 8, part x W (8 * (t / 8) + s) y) + b (ix1 q)) * scale = G x W b (ix2 p q) := by
  rw [zero_add, parts_sum x W t y p q h0 h1]
  rfl

end Cert.QLinear

end
-- ==== Proof.Pieces.lean ====
/-
  What one grid point's body leaves behind, as values of its loaded blocks.

  The body keeps a 1024 × 1024 accumulator tile across the eight points of a run.  At the run's first point it stores
  the zero tile and then adds the point's partial product; at every later point it adds the point's partial product to
  what the point before left; at the run's last point it also stores, into the output tile, the accumulator plus the
  bias row broadcast down the columns, times the scale.  Each of these is one store that covers its buffer whole, so
  what the buffer holds afterwards is that store's value.
-/
import proofs.«115406_j37280316129794_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F]

theorem hz : (![0, 0] : Fin 2 → Nat) = fun _ => 0 := funext fun a => by fin_cases a <;> rfl

/-- A later point of a run that is not its last: the accumulator ends at what it held plus the point's partial product. -/
theorem acc_B (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (harg7 : (scM0_0).IsWhole) (hc0 : ¬cond0_0 i) (hc1 : ¬cond0_1 i)
    (x0 : Vec F S1024x512 .f32) (x1 : Vec F S512x1024 .f32) (x2 : Vec F S1x1024 .f32) (xs0 : Vec F S1024x1024 .f32) :
    sout0_B_0 c i arg3 harg3 arg4 harg4 arg5 harg5 arg6 harg6 scM0_0 harg7 hc0 hc1 x0 x1 x2 xs0 = k0_pay2 x0 x1 xs0 := by
  unfold sout0_B_0
  rw [View.read_writes_eq_canon _ _ _ (scover0_B_0 c i arg3 harg3 arg4 harg4 arg5 harg5 arg6 harg6 scM0_0 harg7 hc0 hc1 x0 x1 x2 xs0)]
  unfold kernelRun0_B
  dsimp only
  sl_unfold_words
  rw [View.canon_unit_zero hz]
  simp only [View.readAt_eq_ld, harg3.read_unread, harg4.read_unread, harg5.read_unread, harg7.read_unread,
    View.ld_unit_zero (S := S1024x512) hz, View.ld_unit_zero (S := S512x1024) hz, View.ld_unit_zero (S := S1x1024) hz,
    View.ld_unit_zero (S := S1024x1024) hz, View.readCov_unit_zero (S := S1024x1024) _ hz]

/-- The first point of a run: the zero tile is stored, read back, and the point's partial product added to it. -/
theorem acc_A (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (harg7 : (scM0_0).IsWhole) (hc0 : cond0_0 i) (hc1 : ¬cond0_1 i)
    (x0 : Vec F S1024x512 .f32) (x1 : Vec F S512x1024 .f32) (x2 : Vec F S1x1024 .f32) :
    sout0_A_0 c i arg3 harg3 arg4 harg4 arg5 harg5 arg6 harg6 scM0_0 harg7 hc0 hc1 x0 x1 x2 = k0_pay2 x0 x1 k0_pay1 := by
  unfold sout0_A_0
  rw [View.read_writes_eq_canon _ _ _ (scover0_A_0 c i arg3 harg3 arg4 harg4 arg5 harg5 arg6 harg6 scM0_0 harg7 hc0 hc1 x0 x1 x2)]
  unfold kernelRun0_A
  dsimp only
  sl_unfold_words
  rw [View.canon_cons_unit_zero (S := S1024x1024) hz]
  simp only [View.readAt_eq_ld, harg3.read_unread, harg4.read_unread, harg5.read_unread, harg7.read_unread,
    View.ld_unit_zero (S := S1024x512) hz, View.ld_unit_zero (S := S512x1024) hz, View.ld_unit_zero (S := S1x1024) hz,
    View.ld_unit_zero (S := S1024x1024) hz, View.readCov_unit_zero (S := S1024x1024) _ hz]

/-- The last point of a run: the accumulator as at any later point, -/
theorem acc_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (harg7 : (scM0_0).IsWhole) (hc0 : ¬cond0_0 i) (hc1 : cond0_1 i)
    (x0 : Vec F S1024x512 .f32) (x1 : Vec F S512x1024 .f32) (x2 : Vec F S1x1024 .f32) (xs0 : Vec F S1024x1024 .f32) :
    sout0_C_0 c i arg3 harg3 arg4 harg4 arg5 harg5 arg6 harg6 scM0_0 harg7 hc0 hc1 x0 x1 x2 xs0 = k0_pay2 x0 x1 xs0 := by
  unfold sout0_C_0
  rw [View.read_writes_eq_canon _ _ _ (scover0_C_0 c i arg3 harg3 arg4 harg4 arg5 harg5 arg6 harg6 scM0_0 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.ld_unit_zero (S := S1024x512) hz, View.ld_unit_zero (S := S512x1024) hz, View.ld_unit_zero (S := S1x1024) hz,
    View.ld_unit_zero (S := S1024x1024) hz, View.readCov_unit_zero (S := S1024x1024) _ hz]

/-- and the output tile: the bias row and the scale applied to the accumulator as the point has just left it. -/
theorem out_C (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1024x1024 .f32) (harg6 : arg6.IsWhole) (harg7 : (scM0_0).IsWhole) (hc0 : ¬cond0_0 i) (hc1 : cond0_1 i)
    (x0 : Vec F S1024x512 .f32) (x1 : Vec F S512x1024 .f32) (x2 : Vec F S1x1024 .f32) (xs0 : Vec F S1024x1024 .f32) :
    out0_C_3 c i arg3 harg3 arg4 harg4 arg5 harg5 arg6 harg6 scM0_0 harg7 hc0 hc1 x0 x1 x2 xs0 = k0_pay3 x2 (k0_pay2 x0 x1 xs0) := by
  unfold out0_C_3
  rw [View.read_writes_eq_canon _ _ _ (cover0_C_3 c i arg3 harg3 arg4 harg4 arg5 harg5 arg6 harg6 scM0_0 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.ld_unit_zero (S := S1024x512) hz, View.ld_unit_zero (S := S512x1024) hz, View.ld_unit_zero (S := S1x1024) hz,
    View.ld_unit_zero (S := S1024x1024) hz, View.readCov_unit_zero (S := S1024x1024) _ hz]

end Cert.KernelIdeal.Tile

end
-- ==== Proof.Payload.lean ====
/-
  The body's three stored values, entry by entry, over the extended reals.

  The zero tile is `0` everywhere.  The accumulator update at the tile entry (p, q) is what the accumulator held there
  plus `Σ_k a[p, k] · w[k, q]` over the 512 contraction indices of the point's two blocks: the narrowing of the
  blocks is the identity at the ideal values, and the matrix unit's product into a zero accumulator is that sum.  The
  output tile at (p, q) is the accumulator there plus the bias row at `q`, times the scale.
-/
import proofs.«115406_j37280316129794_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Tile

open Cert.KernelIdeal Cert.KernelIdeal.Gen

/-! ## The operand indices of the tile product: (p, q) and k go to (p, k) and (k, q) -/

theorem lhs_row (i : S1024x1024.Idx) (r : dot_S1024x512_S512x1024_S1024x1024_1_0_0_1_n_n.contr.Idx) :
    (dot_S1024x512_S512x1024_S1024x1024_1_0_0_1_n_n.lhsIdx i r 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_col (i : S1024x1024.Idx) (r : dot_S1024x512_S512x1024_S1024x1024_1_0_0_1_n_n.contr.Idx) :
    (dot_S1024x512_S512x1024_S1024x1024_1_0_0_1_n_n.lhsIdx i r 1).val = (r ⟨0, by decide⟩).val :=
  dot_S1024x512_S512x1024_S1024x1024_1_0_0_1_n_n.lhsIdx_val_of_single rfl i r
theorem rhs_row (i : S1024x1024.Idx) (r : dot_S1024x512_S512x1024_S1024x1024_1_0_0_1_n_n.contr.Idx) :
    (dot_S1024x512_S512x1024_S1024x1024_1_0_0_1_n_n.rhsIdx i r 0).val = (r ⟨0, by decide⟩).val :=
  dot_S1024x512_S512x1024_S1024x1024_1_0_0_1_n_n.rhsIdx_val_of_single rfl i r
theorem rhs_col (i : S1024x1024.Idx) (r : dot_S1024x512_S512x1024_S1024x1024_1_0_0_1_n_n.contr.Idx) :
    (dot_S1024x512_S512x1024_S1024x1024_1_0_0_1_n_n.rhsIdx i r 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The tile product into the zero accumulator, at the entry (p, q): the sum over the 512 contraction indices. -/
theorem tile_product_apply (a : FVec Ideal S1024x512 .bf16) (w : FVec Ideal S512x1024 .bf16) (p q : Fin 1024) :
    matmul dot_S1024x512_S512x1024_S1024x1024_1_0_0_1_n_n none a w (constant S1024x1024 .f32 0x00000000#32) (ix2 p q)
      = ∑ k : Fin 512, a (ix2 p k) * w (ix2 k q) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun ax => Fin.ext (by
    match ax with
    | ⟨0, _⟩ => exact lhs_row _ _
    | ⟨1, _⟩ => exact (lhs_col _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun ax => Fin.ext (by
    match ax with
    | ⟨0, _⟩ => exact (rhs_row _ _).trans hk
    | ⟨1, _⟩ => exact rhs_col _ _)
  rw [el, er]

/-! ## The three stored values at an entry -/

/-- The zero tile. -/
theorem zero_tile_apply (y : S1024x1024.Idx) : k0_pay1 (F := Ideal) y = 0 := by
  have e : k0_pay1 (F := Ideal) = broadcast S1024x1024 (Scalar.ofBits (F := Ideal) .f32 0x00000000#32) := shapeCast_self _ _
  rw [e]
  exact Ideal.ofBits_zero_f32

/-- The accumulator update. -/
theorem update_apply (a : Vec Ideal S1024x512 .f32) (w : Vec Ideal S512x1024 .f32) (acc : Vec Ideal S1024x1024 .f32)
    (p q : Fin 1024) :
    k0_pay2 a w acc (ix2 p q) = acc (ix2 p q) + ∑ k : Fin 512, a (ix2 p k) * w (ix2 k q) := by
  have e : k0_pay2 a w acc = addf acc (matmul dot_S1024x512_S512x1024_S1024x1024_1_0_0_1_n_n none (truncf .bf16 a bitsLt_bf16_f32)
      (truncf .bf16 w bitsLt_bf16_f32) (constant S1024x1024 .f32 0x00000000#32)) := shapeCast_self _ _
  rw [e]
  exact congrArg (acc (ix2 p q) + ·) (tile_product_apply _ _ p q)

/-- The output tile. -/
theorem output_apply (bias : Vec Ideal S1x1024 .f32) (acc : Vec Ideal S1024x1024 .f32) (p q : Fin 1024) :
    k0_pay3 bias acc (ix2 p q) = (acc (ix2 p q) + bias (ix2 (0 : Fin 1) q)) * Ideal.ofBits .f32 0x3BEBEDFA#32 := by
  unfold k0_pay3
  simp only [shapeCast_self]
  exact congrArg (fun z => (acc (ix2 p q) + z) * Ideal.ofBits .f32 0x3BEBEDFA#32)
    (broadcastTo_1b_ab_apply bias broadcasts_S1x1024_S1024x1024 p q)

end Cert.KernelIdeal.Tile

end
-- ==== Proof.Blocks.lean ====
/-
  The blocks the body is handed at a grid point, as entries of the argument arrays.

  The 128 grid points are numbered row block first, then column block, then chunk of the contraction axis: point `t`
  works on row block `t / 32`, column block `t / 8 % 4` and chunk `t % 8`.  Its block of `x` is rows
  `1024 · (t / 32) + p`, columns `512 · (t % 8) + k`; its block of `W` is rows `512 · (t % 8) + k`, columns
  `1024 · (t / 8 % 4) + q`; its block of the bias (reshaped to one row before the call) is the columns
  `1024 · (t / 8 % 4) + q` of that row; and the output tile it may write back covers rows `1024 · (t / 32) + p`,
  columns `1024 · (t / 8 % 4) + q`.
-/
import proofs.«115406_j37280316129794_1_alg».proof.Proof.Gen.KernelIdeal.Frame
import proofs.«115406_j37280316129794_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Tile

open Cert.KernelIdeal Cert.KernelIdeal.Gen Cert.QLinear

variable (m : (ℓ : Loc nD τ sig) → Buf (Elt Ideal) ℓ)

/-- The three argument arrays on core `c`. -/
abbrev xarr (c : Dev nD) : SM.Idx → EReal := m ((c : Thread nD τ).loc main_arg0)
abbrev warr (c : Dev nD) : SM.Idx → EReal := m ((c : Thread nD τ).loc main_arg1)
abbrev barr (c : Dev nD) : SV.Idx → EReal := m ((c : Thread nD τ).loc main_arg2)

/-- The three input blocks at point `t`. -/
abbrev xblk (c : Dev nD) (t : Fin cfg0.N) : Vec Ideal S1024x512 .f32 := iblk m c 0 t
abbrev wblk (c : Dev nD) (t : Fin cfg0.N) : Vec Ideal S512x1024 .f32 := iblk m c 1 t
abbrev bblk (c : Dev nD) (t : Fin cfg0.N) : Vec Ideal S1x1024 .f32 := iblk m c 2 t

/-- Which block of its array each window is on at point `t`, decided over the grid. -/
theorem block_index : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The bias as the call finds it: the one-row reshape of the argument. -/
theorem bias_row (c : Dev nD) :
    (V m c main_v0 : S1x4096.Idx → EReal) = shapeCast S1x4096 (m ((c : Thread nD τ).loc main_arg2)) shapeCasts_S4096_S1x4096 := by
  dsimp only [Gen.V, Gen.hostOps0]
  after_results
  rfl

/-- The block of `x` at point `t`, at its entry (p, k). -/
theorem xblk_apply (c : Dev nD) (t : Fin cfg0.N) (p : Fin 1024) (k : Fin 512) :
    xblk m c t (ix2 p k) = ext2 (xarr m c) (1024 * (t.val / 32) + p.val) (512 * (t.val % 8) + k.val) := by
  obtain ⟨e0, e1, -⟩ := block_index t
  show V m c main_arg0 (((cfg0.win 0).blk t).view.emb (ix2 p k)) = _
  rw [V_main_arg0]
  refine (ext2_of_idx (xarr m c) _ ?_ ?_).symm
  · show win0_0.index t (0 : Fin 2) * 1024 + 1 * p.val = _
    rw [e0]; omega
  · show win0_0.index t (1 : Fin 2) * 512 + 1 * k.val = _
    rw [e1]; omega

/-- The block of `W` at point `t`, at its entry (k, q). -/
theorem wblk_apply (c : Dev nD) (t : Fin cfg0.N) (k : Fin 512) (q : Fin 1024) :
    wblk m c t (ix2 k q) = ext2 (warr m c) (512 * (t.val % 8) + k.val) (1024 * (t.val / 8 % 4) + q.val) := by
  obtain ⟨-, -, e0, e1, -⟩ := block_index t
  show V m c main_arg1 (((cfg0.win 1).blk t).view.emb (ix2 k q)) = _
  rw [V_main_arg1]
  refine (ext2_of_idx (warr m c) _ ?_ ?_).symm
  · show win0_1.index t (0 : Fin 2) * 512 + 1 * k.val = _
    rw [e0]; omega
  · show win0_1.index t (1 : Fin 2) * 1024 + 1 * q.val = _
    rw [e1]; omega

/-- The block of the bias at point `t`, at its entry (0, q): the bias of the array column `j` that `q` is. -/
theorem bblk_apply (c : Dev nD) (t : Fin cfg0.N) (q : Fin 1024) (j : Fin 4096)
    (hj : j.val = 1024 * (t.val / 8 % 4) + q.val) :
    bblk m c t (ix2 (0 : Fin 1) q) = barr m c (ix1 j) := by
  obtain ⟨-, -, -, -, e0, e1, -⟩ := block_index t
  show (V m c main_v0 : S1x4096.Idx → EReal) (((cfg0.win 2).blk t).view.emb (ix2 (0 : Fin 1) q)) = _
  rw [bias_row]
  have ei : ((cfg0.win 2).blk t).view.emb (ix2 (0 : Fin 1) q) = ix2 (0 : Fin 1) j := by
    funext ax; apply Fin.ext
    match ax with
    | ⟨0, _⟩ => show win0_2.index t (0 : Fin 2) * 1 + 1 * 0 = 0; rw [e0]
    | ⟨1, _⟩ => show win0_2.index t (1 : Fin 2) * 1024 + 1 * q.val = j.val; rw [e1, hj]; omega
  rw [ei]
  exact shapeCast_a_1a_apply _ shapeCasts_S4096_S1x4096 (0 : Fin 1) j

/-- The entry (p, q) of the output tile of point `t` is the array entry of these coordinates. -/
theorem out_emb (t : Fin cfg0.N) (y : S1024x1024.Idx) :
    ((((cfg0.win 3).blk t).view.emb y) 0).val = 1024 * (t.val / 32) + (y 0).val
    ∧ ((((cfg0.win 3).blk t).view.emb y) 1).val = 1024 * (t.val / 8 % 4) + (y 1).val := by
  obtain ⟨-, -, -, -, -, -, e0, e1⟩ := block_index t
  constructor
  · show win0_3.index t (0 : Fin 2) * 1024 + 1 * (y 0).val = _
    rw [e0]; omega
  · show win0_3.index t (1 : Fin 2) * 1024 + 1 * (y 1).val = _
    rw [e1]; omega

end Cert.KernelIdeal.Tile

end
-- ==== Proof.Fold.lean ====
/-
  The accumulator over a run of eight points, and the tile the run's last point writes back.

  Within the run that starts at point `8 · (t / 8)` the accumulator is reset to zero plus the first point's partial
  product and then takes one partial product more at each later point; unrolled, after the last point it holds
  `0 + Σ_{s < 8}` of the partial products of the points `8 · (t / 8) + s`.  The eight chunks are the whole contraction
  axis, so the tile that point writes back — the bias added, the scale applied — holds the dense layer's entries.
-/
import proofs.«115406_j37280316129794_1_alg».proof.Proof.Gen.KernelIdeal.Value
import proofs.«115406_j37280316129794_1_alg».proof.Proof.Spec
import proofs.«115406_j37280316129794_1_alg».proof.Proof.Pieces
import proofs.«115406_j37280316129794_1_alg».proof.Proof.Payload
import proofs.«115406_j37280316129794_1_alg».proof.Proof.Blocks

noncomputable section

open Idealize.ShloMosaic Idealize.ShloMosaic.TcCoe Idealize.SL.Sem Idealize.ShloMosaic.ValueIdx

namespace Cert.KernelIdeal.Tile

open Cert.KernelIdeal Cert.KernelIdeal.Gen Cert.QLinear

variable (m : (ℓ : Loc nD τ sig) → Buf (Elt Ideal) ℓ)

/-- What point `n` makes of the accumulator, as a map of tiles of extended reals. -/
def step (c : Dev nD) (n : ℕ) (hb : n < cfg0.N) (acc : ST.Idx → EReal) : ST.Idx → EReal :=
  Cert.KernelIdeal.Value.scAt0_0 m c n hb acc

/-- At the first point of a run the accumulator is zero plus the point's partial product, whatever it held. -/
theorem step_first (c : Dev nD) (n : ℕ) (hb : n < cfg0.N) (h0 : n % 8 = 0) (acc : ST.Idx → EReal) (y : ST.Idx) :
    step m c n hb acc y = 0 + part (xarr m c) (warr m c) n y := by
  obtain ⟨p, q, rfl⟩ : ∃ (p q : Fin 1024), y = ix2 p q := ⟨y 0, y 1, eq_ix2 y⟩
  have hN : n < 128 := lt_of_lt_of_eq hb N_0
  have h1 : ¬n % 8 = 7 := by omega
  unfold step Cert.KernelIdeal.Value.scAt0_0
  rw [dif_pos h0, dif_neg h1]
  refine (congrFun (acc_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (Memref.isWhole_whole _) ((hcond0_0 (⟨n, hb⟩ : Fin cfg0.N)).mpr h0) (fun h => h1 ((hcond0_1 (⟨n, hb⟩ : Fin cfg0.N)).mp h))
    (xblk m c (⟨n, hb⟩ : Fin cfg0.N)) (wblk m c (⟨n, hb⟩ : Fin cfg0.N)) (bblk m c (⟨n, hb⟩ : Fin cfg0.N))) (ix2 p q)).trans ?_
  rw [update_apply, zero_tile_apply]
  unfold part
  refine congrArg (0 + ·) (Finset.sum_congr rfl fun k _ => ?_)
  rw [xblk_apply, wblk_apply]

/-- At every other point it is what it held plus the point's partial product. -/
theorem step_later (c : Dev nD) (n : ℕ) (hb : n < cfg0.N) (h0 : ¬n % 8 = 0) (acc : ST.Idx → EReal) (y : ST.Idx) :
    step m c n hb acc y = acc y + part (xarr m c) (warr m c) n y := by
  obtain ⟨p, q, rfl⟩ : ∃ (p q : Fin 1024), y = ix2 p q := ⟨y 0, y 1, eq_ix2 y⟩
  unfold step Cert.KernelIdeal.Value.scAt0_0
  rw [dif_neg h0]
  by_cases h1 : n % 8 = 7
  · rw [dif_pos h1]
    refine (congrFun (acc_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (Memref.isWhole_whole _) (fun h => h0 ((hcond0_0 (⟨n, hb⟩ : Fin cfg0.N)).mp h)) ((hcond0_1 (⟨n, hb⟩ : Fin cfg0.N)).mpr h1)
      (xblk m c (⟨n, hb⟩ : Fin cfg0.N)) (wblk m c (⟨n, hb⟩ : Fin cfg0.N)) (bblk m c (⟨n, hb⟩ : Fin cfg0.N)) acc) (ix2 p q)).trans ?_
    rw [update_apply]
    unfold part
    refine congrArg (acc (ix2 p q) + ·) (Finset.sum_congr rfl fun k _ => ?_)
    rw [xblk_apply, wblk_apply]
  · rw [dif_neg h1]
    refine (congrFun (acc_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (Memref.isWhole_whole _) (fun h => h0 ((hcond0_0 (⟨n, hb⟩ : Fin cfg0.N)).mp h)) (fun h => h1 ((hcond0_1 (⟨n, hb⟩ : Fin cfg0.N)).mp h))
      (xblk m c (⟨n, hb⟩ : Fin cfg0.N)) (wblk m c (⟨n, hb⟩ : Fin cfg0.N)) (bblk m c (⟨n, hb⟩ : Fin cfg0.N)) acc) (ix2 p q)).trans ?_
    rw [update_apply]
    unfold part
    refine congrArg (acc (ix2 p q) + ·) (Finset.sum_congr rfl fun k _ => ?_)
    rw [xblk_apply, wblk_apply]

/-- The accumulator after the last point `t` of a run: zero plus the run's eight partial products. -/
theorem acc_at_last (c : Dev nD) (t : Fin cfg0.N) (h7 : t.val % 8 = 7) (y : ST.Idx) :
    ((outsAt0 m c t.val t.isLt).2 : ST.Idx → EReal) y
      = 0 + ∑ s ∈ Finset.range 8, part (xarr m c) (warr m c) (8 * (t.val / 8) + s) y := by
  have hN : t.val < 128 := lt_of_lt_of_eq t.isLt N_0
  refine (congrFun (Cert.KernelIdeal.Value.soutsAt0_0_eq m c t) y).trans ?_
  refine (Pipeline.accAt_add_apply (N := cfg0.N) (ι := ST.Idx) (β := EReal)
    (fun n h => step m c n h (VS0_0.read (Elt Ideal) VS0_0.junk)) (step m c) (fun _ => 0)
    (fun n y => part (xarr m c) (warr m c) n y) (8 * (t.val / 8)) 7
    (fun h i => step_first m c _ h (by omega) _ i)
    (fun n h acc i hlo hhi => step_later m c n h (by omega) acc i)
    (t.val % 8) (by omega) _ y).trans ?_
  rw [h7]

/-- The tile the last point `t` of a run leaves for the write-back holds the dense layer's entries, at the array index
    `j` that the tile's local index `y` is. -/
theorem out_at_last (c : Dev nD) (t : Fin cfg0.N) (h7 : t.val % 8 = 7) (y : ST.Idx) (j : SM.Idx)
    (h0 : (j 0).val = 1024 * (t.val / 32) + (y 0).val) (h1 : (j 1).val = 1024 * (t.val / 8 % 4) + (y 1).val) :
    ((outsAt0 m c t.val t.isLt).1 : ST.Idx → EReal) y = G (xarr m c) (warr m c) (barr m c) j := by
  have hne : ¬t.val % 8 = 0 := by omega
  have e : (outsAt0 m c t.val t.isLt).1 = k0_pay3 (bblk m c t) ((outsAt0 m c t.val t.isLt).2) := by
    rw [outsAt0_C m c t hne h7]
    dsimp only
    exact (out_C c (grid0.coords t) (ms0_0 t) (hs0_0 t) (ms0_1 t) (hs0_1 t) (ms0_2 t) (hs0_2 t) (ms0_3 t) (hs0_3 t) (Memref.isWhole_whole _) (fun h => hne ((hcond0_0 t).mp h)) ((hcond0_1 t).mpr h7)
        (xblk m c t) (wblk m c t) (bblk m c t) _).trans
      (congrArg (k0_pay3 (bblk m c t)) (acc_C c (grid0.coords t) (ms0_0 t) (hs0_0 t) (ms0_1 t) (hs0_1 t) (ms0_2 t) (hs0_2 t) (ms0_3 t) (hs0_3 t) (Memref.isWhole_whole _) (fun h => hne ((hcond0_0 t).mp h)) ((hcond0_1 t).mpr h7)
        (xblk m c t) (wblk m c t) (bblk m c t) _).symm)
  obtain ⟨p, q, rfl⟩ : ∃ (p q : Fin 1024), y = ix2 p q := ⟨y 0, y 1, eq_ix2 y⟩
  refine (congrFun e (ix2 p q)).trans ?_
  rw [output_apply, acc_at_last m c t h7, bblk_apply m c t q ⟨(j 1).val, idx2_lt1 j⟩ h1]
  exact tile_entry (xarr m c) (warr m c) (barr m c) t.val (ix2 p q) ⟨(j 0).val, idx2_lt0 j⟩ ⟨(j 1).val, idx2_lt1 j⟩ h0 h1

end Cert.KernelIdeal.Tile

end
-- ==== Proof.Final.lean ====
/-
  The kernel's result array.

  The output tile of row block `I` and column block `J` is written back once, after the last point of that tile's run
  (the point `32 · I + 8 · J + 7`), and holds the dense layer's entries there; the sixteen tiles cover the
  4096 × 4096 array, so after the run the array is the dense layer's function of the three arguments.
-/
import proofs.«115406_j37280316129794_1_alg».proof.Proof.Fold

noncomputable section

open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen Cert.QLinear

variable (m : (ℓ : Loc nD τ sig) → Buf (Elt Ideal) ℓ) (ρ : Dev nD → PrngReg)

/-- The result array's contents on core `c`. -/
abbrev result (c : Dev nD) : Buf (Elt Ideal) ((c : Thread nD τ).loc main_v1) :=
  G (xarr m c) (warr m c) (barr m c)

/-- What a writing point writes back is its tile of the result. -/
theorem written_tile (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  rw [Cert.KernelIdeal.Value.flushed3]
  funext y
  obtain ⟨h0, h1⟩ := out_emb t y
  show ((outsAt0 m c t.val t.isLt).1 : ST.Idx → EReal) y = G (xarr m c) (warr m c) (barr m c) (((cfg0.win 3).blk t).view.emb y)
  exact out_at_last m c t h7 y _ h0 h1

/-- An array index lies in point `t`'s tile iff each coordinate lies in the tile's range on its axis. -/
theorem mem_tile (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v1).slice (win0_3.rect t)).set ↔ _
  rw [View.set_slice_whole, Rect.mem_set_unit]
  exact Iff.rfl

/-- Every array index is in the tile of some writing point: the last point of the run of its row and column block. -/
theorem tiles_cover (i : S4096x4096.Idx) :
    ∃ t : Fin cfg0.N, (cfg0.win 3).flush t = true ∧ i ∈ ((cfg0.win 3).blk t).view.set := by
  have hi0 : (i 0).val < 4096 := idx2_lt0 i
  have hi1 : (i 1).val < 4096 := idx2_lt1 i
  have hN : cfg0.N = 128 := N_0
  let t : Fin cfg0.N := ⟨32 * ((i 0).val / 1024) + 8 * ((i 1).val / 1024) + 7, by rw [hN]; omega⟩
  have ht : t.val = 32 * ((i 0).val / 1024) + 8 * ((i 1).val / 1024) + 7 := rfl
  obtain ⟨-, -, -, -, -, -, e0, e1⟩ := block_index t
  refine ⟨t, (flush0_3 t).mpr (by rw [ht]; omega), ?_⟩
  rw [mem_tile]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1024 ≤ (i 1).val ∧ (i 1).val < win0_3.index t (1 : Fin 2) * 1024 + 1024
    rw [e1, ht]; omega

/-- So the result array ends holding the dense layer's function of the arguments. -/
theorem final_array (c : Dev nD) : (dats m 0 c).arrAt 3 cfg0.N = result m c :=
  (dats m 0 c).arrAt_eq_of_cover 3 (result m c) (written_tile m c) tiles_cover

/-- The run, read: the result array at that function, the three arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_array m c), (h c).2⟩)
    (Cert.KernelIdeal.Value.run_blocks m ρ)

end Cert.KernelIdeal.Tile

end
-- ==== Proof.RefG.lean ====
/-
  The reference computes the dense layer's function.

  Its program is a matrix product, the bias broadcast to a row and then down the columns, a sum, and a product with
  the scale broadcast to every entry.  Read at the entry of coordinates `p`, `q`: the product is the sum over the
  contraction index `k` of `x[p, k] · W[k, q]`, the two broadcasts read `b[q]`, and the last factor is the scale.
-/
import proofs.«115406_j37280316129794_1_alg».proof.Proof.Gen.ReferenceIdeal.Read
import proofs.«115406_j37280316129794_1_alg».proof.Proof.Spec

noncomputable section

open Idealize.ShloMosaic Idealize.ShloMosaic.ValueIdx

namespace Cert.ReferenceIdeal.RefValue

open Cert.ReferenceIdeal Cert.ReferenceIdeal.Gen Cert.ReferenceIdeal.Read Cert.QLinear

/-- The reference's last stage is `G` of the three arguments. -/
theorem ref_is_G (x0 x1 : (⟨S4096x4096, .f32⟩ : BufTy).Contents (Elt Ideal)) (x2 : (⟨S4096, .f32⟩ : BufTy).Contents (Elt Ideal)) :
    val_main_v5 (F := Ideal) x0 x1 x2 = G x0 x1 x2 := by
  funext i
  obtain ⟨p, q, rfl⟩ : ∃ (p q : Fin 4096), i = ix2 p q := ⟨i 0, i 1, eq_ix2 i⟩
  have el : ∀ k : Fin 4096, lidx_main_v0 (ix2 p q) k = ix2 p k := fun k =>
    funext fun a => Fin.ext (by match a with | ⟨0, _⟩ => rfl | ⟨1, _⟩ => rfl)
  have er : ∀ k : Fin 4096, ridx_main_v0 (ix2 p q) k = ix2 k q := fun k =>
    funext fun a => Fin.ext (by match a with | ⟨0, _⟩ => rfl | ⟨1, _⟩ => rfl)
  have eb : idx_main_v1 (idx_main_v2 (ix2 p q)) = ix1 q :=
    funext fun a => Fin.ext (by match a with | ⟨0, _⟩ => rfl)
  rw [G_ix2, val_main_v5_apply, val_main_v3_apply, val_main_v0_apply, val_main_v2_apply, val_main_v1_apply,
    val_main_v4_apply, val_main_cst_apply]
  unfold entry scale
  simp only [el, er, eb, Ideal.mulf_def, Ideal.addf_def, Ideal.ofBits_def]

end Cert.ReferenceIdeal.RefValue

end
-- ==== Proof.lean ====
/- A dense layer with a requantisation scale, tiled: the kernel and the reference compute one function.

   Both programs compute out[i, j] = (Σ_k x[i, k] · W[k, j] + b[j]) · s for 4096 × 4096 matrices `x`, `W`, a bias `b`
   of 4096 entries and one scalar `s` that both spell with the same 32-bit pattern.  The reference does it with one
   matrix product, two broadcasts of the bias, a sum and a product.  The kernel works tile by tile: for each of the
   sixteen 1024 × 1024 output tiles it runs through the contraction axis in eight chunks of 512, keeping an accumulator
   that is set to zero at the first chunk and takes one partial product per chunk; after the last chunk it adds the bias
   row and applies the scale, and that tile is written back.  Over the extended reals the kernel's narrowing of its
   operands is the identity, and the eight chunk sums regroup into the whole contraction by associativity and
   commutativity of addition alone, so no finiteness of the inputs is needed for the equality of the two results.
   The kernel's run and what each grid point leaves are the generated frame and value modules; the modules Spec,
   Pieces, Payload, Blocks, Fold, Final (kernel side) and RefG (reference side) read them as that function. -/
import proofs.«115406_j37280316129794_1_alg».proof.Defs
import proofs.«115406_j37280316129794_1_alg».proof.Proof.Gen.Kernel
import proofs.«115406_j37280316129794_1_alg».proof.Proof.Gen.Kernel.Skeleton
import proofs.«115406_j37280316129794_1_alg».proof.Proof.Gen.Kernel.Launch
import proofs.«115406_j37280316129794_1_alg».proof.Proof.Gen.Kernel.Points
import proofs.«115406_j37280316129794_1_alg».proof.Proof.Gen.Kernel.Frame
import proofs.«115406_j37280316129794_1_alg».proof.Proof.Gen.KernelIdeal
import proofs.«115406_j37280316129794_1_alg».proof.Proof.Gen.KernelIdeal.Skeleton
import proofs.«115406_j37280316129794_1_alg».proof.Proof.Gen.KernelIdeal.Launch
import proofs.«115406_j37280316129794_1_alg».proof.Proof.Gen.KernelIdeal.Points
import proofs.«115406_j37280316129794_1_alg».proof.Proof.Gen.KernelIdeal.Frame
import proofs.«115406_j37280316129794_1_alg».proof.Proof.Gen.ReferenceIdeal
import proofs.«115406_j37280316129794_1_alg».proof.Proof.Gen.Pre_finite_inputs
import proofs.«115406_j37280316129794_1_alg».proof.Proof.Gen.KernelIdeal.Value
import proofs.«115406_j37280316129794_1_alg».proof.Proof.Gen.ReferenceIdeal.Run
import proofs.«115406_j37280316129794_1_alg».proof.Proof.Gen.ReferenceIdeal.Read
import proofs.«115406_j37280316129794_1_alg».proof.Proof.Final
import proofs.«115406_j37280316129794_1_alg».proof.Proof.RefG
import Idealize.ShloMosaic.Adequacy
import Idealize.ShloMosaic.Init

noncomputable section

namespace Cert.Proof

open Idealize.ShloMosaic Idealize.SL.Sem Cert.Kernel

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the dense layer's function of them. -/
theorem algebraic : Cert.algebraic_KernelIdeal_ReferenceIdeal := by
  intro m ρ m' ρ' _ hagree
  refine ⟨fun c => Cert.KernelIdeal.Tile.result m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_is_G, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
